-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S5000 : Shape := ⟨1, ![5000]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 113
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S1700000x1, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S_, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S1x64, .f32⟩
  | .hbm, ⟨112, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S5000x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S1x128, .f32⟩
  | 31 => ⟨S100000x128, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000, .f32⟩
  | 78 => ⟨S100000x1, .f32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000x128, .f32⟩
  | 7 => ⟨S_, .f32⟩
  | 8 => ⟨S100000, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x64, .f32⟩
  | 20 => ⟨S1x64, .f32⟩
  | 21 => ⟨S100000x64, .f32⟩
  | 22 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_cst_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call2_cst : Ref sig .tc := ⟨.hbm, 144, rfl⟩
abbrev main_call2_v0 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KStages.lean ====
/-
  The host side of the kernel's program, as functions of what it reads. From the edge list e: the sources and the
  targets with one self loop per node appended (rowK, colK), the degree of every node (degK: a scatter-add of ones
  at the targets) and its inverse square root where positive (dinvK). The propagation step (gappK) gathers the rows
  of h at the sources, scales row j by dinv(source j) · dinv(target j), scatter-adds the rows at the targets into
  zeros, and multiplies by the literal one. An index below zero is wrapped once by the number of nodes (wrapK),
  as the gather's lowering does.
-/
import proofs.«171047_j64132451664423_1_alg».proof.Proof.Gen.KernelIdeal

noncomputable section

namespace Cert.KernelIdeal.Stages

open Cert.KernelIdeal Cert.KernelIdeal.Gen Idealize.ShloMosaic Idealize.ShloMosaic.TcCoe Idealize.SL.Sem

variable {F : FTy → Type} [FloatOps F]

def rowK (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def colK (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

def degK (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 (colK e))
    (broadcastInDim S1700000 ![] bcast_S_S1700000 (constant S_ .f32 0x3F800000#32))

def dinvK (e : (⟨S2x1600000, .i32⟩ : BufTy).Contents (Elt F)) : (⟨S100000, .f32⟩ : BufTy).Contents (Elt F) :=
  select (cmpf (F := F) .ogt (degK e) (broadcastInDim S100000 ![] bcast_S_S100000 (constant S_ .f32 0x00000000#32)))
    (Host.rsqrt (degK e))
    (broadcastInDim S100000 ![] bcast_S_S100000 (id (constant S_ .f32 0x00000000#32)))

def wrapK (ix : (⟨S1700000, .i32⟩ : BufTy).Contents (Elt F)) : (⟨S1700000, .i32⟩ : BufTy).Contents (Elt F) :=
  select (cmpi .slt ix (broadcastInDim S1700000 ![] bcast_S_S1700000 (constantI S_ 32 0#32)))
    (addi ix (broadcastInDim S1700000 ![] bcast_S_S1700000 (constantI S_ 32 100000#32))) ix

def aggK (d : (⟨S100000, .f32⟩ : BufTy).Contents (Elt F)) (r cl : (⟨S1700000, .i32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 cl)
    (mulf
      (broadcastInDim S1700000x128 ![0, 1] bcast_S1700000x1_S1700000x128_0_1
        (broadcastInDim S1700000x1 ![0] bcast_S1700000_S1700000x1_0
          (mulf
            (Host.gather gather_S100000_S1700000x1_S1700000_n_0_n_n_0_1_1 d (broadcastInDim S1700000x1 ![0] bcast_S1700000_S1700000x1_0 (wrapK r)))
            (Host.gather gather_S100000_S1700000x1_S1700000_n_0_n_n_0_1_1 d (broadcastInDim S1700000x1 ![0] bcast_S1700000_S1700000x1_0 (wrapK cl))))))
      (Host.gather gather_S100000x128_S1700000x1_S1700000x128_1_0_n_n_0_1_1128 h (broadcastInDim S1700000x1 ![0] bcast_S1700000_S1700000x1_0 (wrapK r))))

def gappK (d : (⟨S100000, .f32⟩ : BufTy).Contents (Elt F)) (r cl : (⟨S1700000, .i32⟩ : BufTy).Contents (Elt F))
    (h : (⟨S100000x128, .f32⟩ : BufTy).Contents (Elt F)) : (⟨S100000x128, .f32⟩ : BufTy).Contents (Elt F) :=
  mulf (broadcastInDim S100000x128 ![] bcast_S_S100000x128 (constant S_ .f32 0x3F800000#32)) (aggK d r cl h)

end Cert.KernelIdeal.Stages

end
-- ==== Proof.KHost.lean ====
/-
  What the kernel program's host stretches leave in the buffers the regions read, from the launch memory `m`.
-/
import proofs.«171047_j64132451664423_1_alg».proof.Proof.Gen.KernelIdeal.Frame
import proofs.«171047_j64132451664423_1_alg».proof.Proof.KStages
import Idealize.ShloMosaic.Lib.StableHlo.Run
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.SL.Sem
open Idealize.ShloMosaic.Pipeline (Dat Cfg Window)
open Cert.KernelIdeal.Stages

variable (m : (ℓ : Loc nD τ sig) → Buf (Elt Ideal) ℓ) (ρ : Dev nD → PrngReg)

/-- A buffer that no operation of a host stretch writes holds after the stretch what it held before. -/
local macro "host_carry " r:term : tactic =>
  `(tactic| exact StableHlo.after_of_forall_not_mem (b := Proc.devRef .tc $r) _ _ (List.forall_iff_forall_mem.mp (by
      simp only [hostOps0, hostOps0_1, hostOps0_2, hostOps1, hostOps2, hostOps3, hostOps4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Before region 0 -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_carry main_arg0
    _ = W1 m ρ c (Proc.devRef .tc main_arg0) := by host_carry main_arg0
    _ = W0 m ρ c (Proc.devRef .tc main_arg0) := by host_carry main_arg0
    _ = m ((c : Thread nD τ).loc main_arg0) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_carry main_arg2
    _ = W1 m ρ c (Proc.devRef .tc main_arg2) := by host_carry main_arg2
    _ = W0 m ρ c (Proc.devRef .tc main_arg2) := by host_carry main_arg2
    _ = m ((c : Thread nD τ).loc main_arg2) := rfl
theorem W3_v15 (c : Dev nD) :
    W3 m ρ c (Proc.devRef .tc main_v15) = shapeCast S1x128 (m ((c : Thread nD τ).loc main_arg3)) shapeCasts_S128_S1x128 := by
  show StableHlo.after hostOps0_2 (W2 m ρ c) (Proc.devRef .tc main_v15) = _
  after_results
  rfl

/-! ## The edge tables, as the first stretch leaves them -/

theorem W1_v3 (c : Dev nD) : W1 m ρ c (Proc.devRef .tc main_v3) = rowK (m ((c : Thread nD τ).loc main_arg1)) := by
  show StableHlo.after hostOps0 (W0 m ρ c) (Proc.devRef .tc main_v3) = _
  after_results_simp
  rfl
theorem W1_v6 (c : Dev nD) : W1 m ρ c (Proc.devRef .tc main_v6) = colK (m ((c : Thread nD τ).loc main_arg1)) := by
  show StableHlo.after hostOps0 (W0 m ρ c) (Proc.devRef .tc main_v6) = _
  after_results_simp
  rfl

theorem W1_v10 (c : Dev nD) : W1 m ρ c (Proc.devRef .tc main_v10) = degK (m ((c : Thread nD τ).loc main_arg1)) := by
  show StableHlo.after hostOps0 (W0 m ρ c) (Proc.devRef .tc main_v10) = _
  after_results_simp
  rfl
theorem W1_v12 (c : Dev nD) :
    W1 m ρ c (Proc.devRef .tc main_v12)
      = cmpf (F := Ideal) .ogt (degK (m ((c : Thread nD τ).loc main_arg1)))
          (broadcastInDim S100000 ![] bcast_S_S100000 (constant S_ .f32 0x00000000#32)) := by
  show StableHlo.after hostOps0 (W0 m ρ c) (Proc.devRef .tc main_v12) = _
  after_results_simp
  rfl
theorem W1_v13 (c : Dev nD) :
    W1 m ρ c (Proc.devRef .tc main_v13) = (Host.rsqrt (degK (m ((c : Thread nD τ).loc main_arg1))) : (⟨S100000, .f32⟩ : BufTy).Contents (Elt Ideal)) := by
  show StableHlo.after hostOps0 (W0 m ρ c) (Proc.devRef .tc main_v13) = _
  after_results_simp
  rfl
theorem W1_cst_2 (c : Dev nD) :
    W1 m ρ c (Proc.devRef .tc main_cst_2) = constant (F := Ideal) S_ .f32 0x00000000#32 := by
  show StableHlo.after hostOps0 (W0 m ρ c) (Proc.devRef .tc main_cst_2) = _
  after_results_simp

/-- The inlined select, over any contents of the buffers it reads. -/
theorem where_v14 (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  after_results_simp
  rfl
theorem W2_v14 (c : Dev nD) : W2 m ρ c (Proc.devRef .tc main_v14) = dinvK (m ((c : Thread nD τ).loc main_arg1)) := by
  show StableHlo.after hostOps0_1 (W1 m ρ c) (Proc.devRef .tc main_v14) = _
  rw [where_v14, W1_v12, W1_v13, W1_cst_2]
  rfl

theorem W3_v3 (c : Dev nD) : W3 m ρ c (Proc.devRef .tc main_v3) = rowK (m ((c : Thread nD τ).loc main_arg1)) :=
  calc W3 m ρ c (Proc.devRef .tc main_v3)
    _ = W2 m ρ c (Proc.devRef .tc main_v3) := by host_carry main_v3
    _ = W1 m ρ c (Proc.devRef .tc main_v3) := by host_carry main_v3
    _ = rowK (m ((c : Thread nD τ).loc main_arg1)) := W1_v3 m ρ c
theorem W3_v6 (c : Dev nD) : W3 m ρ c (Proc.devRef .tc main_v6) = colK (m ((c : Thread nD τ).loc main_arg1)) :=
  calc W3 m ρ c (Proc.devRef .tc main_v6)
    _ = W2 m ρ c (Proc.devRef .tc main_v6) := by host_carry main_v6
    _ = W1 m ρ c (Proc.devRef .tc main_v6) := by host_carry main_v6
    _ = colK (m ((c : Thread nD τ).loc main_arg1)) := W1_v6 m ρ c
theorem W3_v14 (c : Dev nD) : W3 m ρ c (Proc.devRef .tc main_v14) = dinvK (m ((c : Thread nD τ).loc main_arg1)) :=
  calc W3 m ρ c (Proc.devRef .tc main_v14)
    _ = W2 m ρ c (Proc.devRef .tc main_v14) := by host_carry main_v14
    _ = dinvK (m ((c : Thread nD τ).loc main_arg1)) := W2_v14 m ρ c

/-! ## Between region 0 and region 1: the first propagation -/

theorem W4_v3 (c : Dev nD) : W4 m ρ c (Proc.devRef .tc main_v3) = rowK (m ((c : Thread nD τ).loc main_arg1)) :=
  (W4_of_ne m ρ c main_v3 (by decide)).trans (W3_v3 m ρ c)
theorem W4_v6 (c : Dev nD) : W4 m ρ c (Proc.devRef .tc main_v6) = colK (m ((c : Thread nD τ).loc main_arg1)) :=
  (W4_of_ne m ρ c main_v6 (by decide)).trans (W3_v6 m ρ c)
theorem W4_v14 (c : Dev nD) : W4 m ρ c (Proc.devRef .tc main_v14) = dinvK (m ((c : Thread nD τ).loc main_arg1)) :=
  (W4_of_ne m ρ c main_v14 (by decide)).trans (W3_v14 m ρ c)

/-- The propagation stretch, over any contents of the buffers it reads. -/
theorem prop1_v46 (V : Valuation τ sig (Elt Ideal)) :
    StableHlo.after hostOps1 V (Proc.devRef .tc main_v46)
      = gappK (V (Proc.devRef .tc main_v14)) (V (Proc.devRef .tc main_v3)) (V (Proc.devRef .tc main_v6))
          (V (Proc.devRef .tc main_v16)) := by
  after_results_simp
  rfl

theorem W5_v46 (c : Dev nD) :
    W5 m ρ c (Proc.devRef .tc main_v46)
      = gappK (dinvK (m ((c : Thread nD τ).loc main_arg1))) (rowK (m ((c : Thread nD τ).loc main_arg1)))
          (colK (m ((c : Thread nD τ).loc main_arg1))) (W4 m ρ c (Proc.devRef .tc main_v16)) := by
  show StableHlo.after hostOps1 (W4 m ρ c) (Proc.devRef .tc main_v46) = _
  rw [prop1_v46, W4_v14, W4_v3, W4_v6]

/-! ## Between region 1 and region 2 -/

theorem W7_v47 (c : Dev nD) : W7 m ρ c (Proc.devRef .tc main_v47) = W6 m ρ c (Proc.devRef .tc main_v47) := by
  host_carry main_v47
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_carry main_arg4
    _ = W3 m ρ c (Proc.devRef .tc main_arg4) := W4_of_ne m ρ c main_arg4 (by decide)
    _ = W2 m ρ c (Proc.devRef .tc main_arg4) := by host_carry main_arg4
    _ = W1 m ρ c (Proc.devRef .tc main_arg4) := by host_carry main_arg4
    _ = W0 m ρ c (Proc.devRef .tc main_arg4) := by host_carry main_arg4
    _ = m ((c : Thread nD τ).loc main_arg4) := rfl
theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by host_carry main_arg4
    _ = m ((c : Thread nD τ).loc main_arg4) := W6_arg4 m ρ c
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_carry main_arg5
    _ = W3 m ρ c (Proc.devRef .tc main_arg5) := W4_of_ne m ρ c main_arg5 (by decide)
    _ = W2 m ρ c (Proc.devRef .tc main_arg5) := by host_carry main_arg5
    _ = W1 m ρ c (Proc.devRef .tc main_arg5) := by host_carry main_arg5
    _ = W0 m ρ c (Proc.devRef .tc main_arg5) := by host_carry main_arg5
    _ = m ((c : Thread nD τ).loc main_arg5) := rfl
theorem W7_v48 (c : Dev nD) :
    W7 m ρ c (Proc.devRef .tc main_v48) = shapeCast S1x128 (m ((c : Thread nD τ).loc main_arg5)) shapeCasts_S128_S1x128 := by
  show StableHlo.after hostOps2 (W6 m ρ c) (Proc.devRef .tc main_v48) = _
  after_results
  rw [W6_arg5]
  rfl

/-! ## Between region 2 and region 3: the second propagation -/

theorem W8_v3 (c : Dev nD) : W8 m ρ c (Proc.devRef .tc main_v3) = rowK (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by host_carry main_v3
    _ = W5 m ρ c (Proc.devRef .tc main_v3) := W6_of_ne m ρ c main_v3 (by decide)
    _ = W4 m ρ c (Proc.devRef .tc main_v3) := by host_carry main_v3
    _ = rowK (m ((c : Thread nD τ).loc main_arg1)) := W4_v3 m ρ c
theorem W8_v6 (c : Dev nD) : W8 m ρ c (Proc.devRef .tc main_v6) = colK (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := by host_carry main_v6
    _ = W5 m ρ c (Proc.devRef .tc main_v6) := W6_of_ne m ρ c main_v6 (by decide)
    _ = W4 m ρ c (Proc.devRef .tc main_v6) := by host_carry main_v6
    _ = colK (m ((c : Thread nD τ).loc main_arg1)) := W4_v6 m ρ c
theorem W8_v14 (c : Dev nD) : W8 m ρ c (Proc.devRef .tc main_v14) = dinvK (m ((c : Thread nD τ).loc main_arg1)) :=
  calc W8 m ρ c (Proc.devRef .tc main_v14)
    _ = W7 m ρ c (Proc.devRef .tc main_v14) := W8_of_ne m ρ c main_v14 (by decide)
    _ = W6 m ρ c (Proc.devRef .tc main_v14) := by host_carry main_v14
    _ = W5 m ρ c (Proc.devRef .tc main_v14) := W6_of_ne m ρ c main_v14 (by decide)
    _ = W4 m ρ c (Proc.devRef .tc main_v14) := by host_carry main_v14
    _ = dinvK (m ((c : Thread nD τ).loc main_arg1)) := W4_v14 m ρ c

/-- The second propagation stretch, over any contents of the buffers it reads. -/
theorem prop2_v79 (V : Valuation τ sig (Elt Ideal)) :
    StableHlo.after hostOps3 V (Proc.devRef .tc main_v79)
      = gappK (V (Proc.devRef .tc main_v14)) (V (Proc.devRef .tc main_v3)) (V (Proc.devRef .tc main_v6))
          (V (Proc.devRef .tc main_v49)) := by
  after_results_simp
  rfl

theorem W9_v79 (c : Dev nD) :
    W9 m ρ c (Proc.devRef .tc main_v79)
      = gappK (dinvK (m ((c : Thread nD τ).loc main_arg1))) (rowK (m ((c : Thread nD τ).loc main_arg1)))
          (colK (m ((c : Thread nD τ).loc main_arg1))) (W8 m ρ c (Proc.devRef .tc main_v49)) := by
  show StableHlo.after hostOps3 (W8 m ρ c) (Proc.devRef .tc main_v79) = _
  rw [prop2_v79, W8_v14, W8_v3, W8_v6]

/-! ## Between region 3 and region 4 -/

theorem W11_v80 (c : Dev nD) : W11 m ρ c (Proc.devRef .tc main_v80) = W10 m ρ c (Proc.devRef .tc main_v80) := by
  host_carry main_v80
theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by host_carry main_arg6
    _ = W7 m ρ c (Proc.devRef .tc main_arg6) := W8_of_ne m ρ c main_arg6 (by decide)
    _ = W6 m ρ c (Proc.devRef .tc main_arg6) := by host_carry main_arg6
    _ = W5 m ρ c (Proc.devRef .tc main_arg6) := W6_of_ne m ρ c main_arg6 (by decide)
    _ = W4 m ρ c (Proc.devRef .tc main_arg6) := by host_carry main_arg6
    _ = W3 m ρ c (Proc.devRef .tc main_arg6) := W4_of_ne m ρ c main_arg6 (by decide)
    _ = W2 m ρ c (Proc.devRef .tc main_arg6) := by host_carry main_arg6
    _ = W1 m ρ c (Proc.devRef .tc main_arg6) := by host_carry main_arg6
    _ = W0 m ρ c (Proc.devRef .tc main_arg6) := by host_carry main_arg6
    _ = m ((c : Thread nD τ).loc main_arg6) := rfl
theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := by host_carry main_arg6
    _ = m ((c : Thread nD τ).loc main_arg6) := W10_arg6 m ρ c
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_carry main_arg7
    _ = W7 m ρ c (Proc.devRef .tc main_arg7) := W8_of_ne m ρ c main_arg7 (by decide)
    _ = W6 m ρ c (Proc.devRef .tc main_arg7) := by host_carry main_arg7
    _ = W5 m ρ c (Proc.devRef .tc main_arg7) := W6_of_ne m ρ c main_arg7 (by decide)
    _ = W4 m ρ c (Proc.devRef .tc main_arg7) := by host_carry main_arg7
    _ = W3 m ρ c (Proc.devRef .tc main_arg7) := W4_of_ne m ρ c main_arg7 (by decide)
    _ = W2 m ρ c (Proc.devRef .tc main_arg7) := by host_carry main_arg7
    _ = W1 m ρ c (Proc.devRef .tc main_arg7) := by host_carry main_arg7
    _ = W0 m ρ c (Proc.devRef .tc main_arg7) := by host_carry main_arg7
    _ = m ((c : Thread nD τ).loc main_arg7) := rfl
theorem W11_v81 (c : Dev nD) :
    W11 m ρ c (Proc.devRef .tc main_v81) = shapeCast S1x64 (m ((c : Thread nD τ).loc main_arg7)) shapeCasts_S64_S1x64 := by
  show StableHlo.after hostOps4 (W10 m ρ c) (Proc.devRef .tc main_v81) = _
  after_results
  rw [W10_arg7]
  rfl

end Cert.KernelIdeal.KHost

end
-- ==== Proof.Spec.lean ====
/-
  The network's two per-layer maps at the ideal instance, over literal shapes, entry by entry on the extended reals.
  A LINEAR layer sends a [100000, 128] array x, a weight matrix w and a bias row b to x · w + b: entry (r, q) is the
  sum over k of x(r, k) · w(k, q), plus b(0, q). The NORMALISE-AND-CLIP layer divides every entry of a row by the
  row's Euclidean length (not below the literal eps) and then takes the positive part.
-/
import Idealize.ShloMosaic.PureOps.Ideal
import Idealize.ShloMosaic.Lib.ValueIdx

noncomputable section

open scoped BigOperators

namespace Cert.Spec

open Idealize.ShloMosaic Idealize.ShloMosaic.ValueIdx

/-- The row coordinate of an index of a [100000, n] array, as a number below 100000. -/
abbrev rowOf {n : Nat} (i : (⟨2, ![100000, n]⟩ : Shape).Idx) : Fin 100000 := ⟨(i 0).val, (i 0).isLt⟩
/-- The column coordinate of an index of a [100000, n] array, as a number below n. -/
abbrev colOf {n : Nat} (i : (⟨2, ![100000, n]⟩ : Shape).Idx) : Fin n := ⟨(i 1).val, (i 1).isLt⟩

/-- x · w + b with 128 output columns. -/
def lin128 (x : (⟨2, ![100000, 128]⟩ : Shape).Idx → EReal) (w : (⟨2, ![128, 128]⟩ : Shape).Idx → EReal)
    (b : (⟨2, ![1, 128]⟩ : Shape).Idx → EReal) : (⟨2, ![100000, 128]⟩ : Shape).Idx → EReal :=
  fun i => (∑ k : Fin 128, x (ix2 (rowOf i) k) * w (ix2 k (colOf i))) + b (ix2 (0 : Fin 1) (colOf i))

/-- x · w + b with 64 output columns. -/
def lin64 (x : (⟨2, ![100000, 128]⟩ : Shape).Idx → EReal) (w : (⟨2, ![128, 64]⟩ : Shape).Idx → EReal)
    (b : (⟨2, ![1, 64]⟩ : Shape).Idx → EReal) : (⟨2, ![100000, 64]⟩ : Shape).Idx → EReal :=
  fun i => (∑ k : Fin 128, x (ix2 (rowOf i) k) * w (ix2 k (colOf i))) + b (ix2 (0 : Fin 1) (colOf i))

/-- The sum of the squares of row r. -/
def rowSq (a : (⟨2, ![100000, 128]⟩ : Shape).Idx → EReal) (r : Fin 100000) : EReal :=
  ∑ k : Fin 128, a (ix2 r k) * a (ix2 r k)

/-- max (a / max (sqrt (row's sum of squares)) eps) 0, eps and 0 the two literal words. -/
def normRelu (a : (⟨2, ![100000, 128]⟩ : Shape).Idx → EReal) : (⟨2, ![100000, 128]⟩ : Shape).Idx → EReal :=
  fun i => max (Ideal.div (a i) (max (Ideal.sqrt (rowSq a (rowOf i))) (Ideal.ofBits .f32 0x2B8CBCCC#32)))
    (Ideal.ofBits .f32 0x00000000#32)

theorem lin128_apply (x w b) (p : Fin 100000) (q : Fin 128) :
    lin128 x w b (ix2 p q) = (∑ k : Fin 128, x (ix2 p k) * w (ix2 k q)) + b (ix2 (0 : Fin 1) q) := rfl

theorem lin64_apply (x w b) (p : Fin 100000) (q : Fin 64) :
    lin64 x w b (ix2 p q) = (∑ k : Fin 128, x (ix2 p k) * w (ix2 k q)) + b (ix2 (0 : Fin 1) q) := rfl

theorem normRelu_apply (a) (p : Fin 100000) (q : Fin 128) :
    normRelu a (ix2 p q) = max (Ideal.div (a (ix2 p q)) (max (Ideal.sqrt (rowSq a p)) (Ideal.ofBits .f32 0x2B8CBCCC#32)))
      (Ideal.ofBits .f32 0x00000000#32) := rfl

end Cert.Spec

end
-- ==== Proof.LinPay.lean ====
/-
  The linear layers' block arithmetic at the ideal instance, entry by entry: a [5000, 128] block x, a weight matrix w
  and a bias row b go to x · w + b; entry (p, q) is the sum over k of x(p, k) · w(k, q), plus b(0, q). Rounding the
  operands to the shorter format is the identity on the extended reals, and the product accumulates into zero.
-/
import proofs.«171047_j64132451664423_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LinPay

open Cert.KernelIdeal Cert.KernelIdeal.Gen
open Idealize.ShloMosaic Idealize.ShloMosaic.ValueIdx

/-! ### The dot record with 128 output columns: its operand indices, axis by axis -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator, entry (p, q): the sum over k of l(p, k) · r(k, q). -/
theorem matmul128_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row spread over the rows, entry (p, q): b(0, q). -/
theorem bias128_apply (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  refine broadcastTo_apply b broadcasts_S1x128_S5000x128 (ix2 p q) (ix2 (0 : Fin 1) q) fun a => ?_
  match a with
  | ⟨0, _⟩ => rfl
  | ⟨1, _⟩ => rfl

/-! ### The dot record with 64 output columns: its operand indices, axis by axis -/

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into the zero accumulator, entry (p, q): the sum over k of l(p, k) · r(k, q). -/
theorem matmul64_apply {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-- The bias row spread over the rows, entry (p, q): b(0, q). -/
theorem bias64_apply (b : Vec Ideal S1x64 .f32) (p : Fin 5000) (q : Fin 64) :
    broadcastTo S5000x64 (shapeCast S1x64 b shapeCasts_S1x64_S1x64) broadcasts_S1x64_S5000x64 (ix2 p q) = b (ix2 (0 : Fin 1) q) := by
  rw [shapeCast_self]
  refine broadcastTo_apply b broadcasts_S1x64_S5000x64 (ix2 p q) (ix2 (0 : Fin 1) q) fun a => ?_
  match a with
  | ⟨0, _⟩ => rfl
  | ⟨1, _⟩ => rfl

/-! ### The three payloads at an entry -/

/-- Region 0's block arithmetic at entry (p, q). -/
theorem k0_pay1_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ (ix2 p q)).trans ?_
  refine congrArg₂ (· + ·) ((matmul128_apply _ _ p q).trans ?_) (bias128_apply x2 p q)
  rfl

/-- Region 2's block arithmetic at entry (p, q): the cast in front keeps the shape, so it is the identity. -/
theorem k2_pay1_apply (x0 : Vec Ideal S5000x128 .f32) (x1 : Vec Ideal S128x128 .f32) (x2 : Vec Ideal S1x128 .f32)
    (p : Fin 5000) (q : Fin 128) :
    k2_pay1 (F := Ideal) x0 x1 x2 (ix2 p q) = (∑ k : Fin 128, x0 (ix2 p k) * x1 (ix2 k q)) + x2 (ix2 (0 : Fin 1) q) := by
  unfold k2_pay1
  refine (addf_apply _ _ (ix2 p q)).trans ?_
  refine congrArg₂ (· + ·) ((matmul128_apply _ _ p q).trans ?_) (bias128_apply x2 p q)
  rw [shapeCast_self]
  rfl

/-- Region 4's block arithmetic at entry (p, q), 64 output columns. -/
theorem k4_pay1_apply (x0 : Vec Ideal S5000x128 .f32) (x1 : Vec Ideal S128x64 .f32) (x2 : Vec Ideal S1x64 .f32)
    (p : Fin 5000) (q : Fin 64) :
    k4_pay1 (F := Ideal) x0 x1 x2 (ix2 p q) = (∑ k : Fin 128, x0 (ix2 p k) * x1 (ix2 k q)) + x2 (ix2 (0 : Fin 1) q) := by
  unfold k4_pay1
  refine (addf_apply _ _ (ix2 p q)).trans ?_
  refine congrArg₂ (· + ·) ((matmul64_apply _ _ p q).trans ?_) (bias64_apply x2 p q)
  rw [shapeCast_self]
  rfl

end Cert.KernelIdeal.LinPay

end
-- ==== Proof.Reg0.lean ====
/-
  Region 0 of the kernel's program as ONE function of the arrays it finds at entry: what its write-backs leave in
  the output array. Each of the 20 grid points t writes rows 5000·t … 5000·t + 4999 of x · w + b: its block of x is
  those rows of x, and w and b are whole at every point; the 20 row blocks fill the 100000 rows.
-/
import proofs.«171047_j64132451664423_1_alg».proof.Proof.Gen.KernelIdeal.Frame
import proofs.«171047_j64132451664423_1_alg».proof.Proof.Spec
import proofs.«171047_j64132451664423_1_alg».proof.Proof.LinPay
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: point t takes row block t of x and of the output, and block (0, 0) of
    w and b. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of point t's block is row 5000·t + r of the array. -/
abbrev rowAt (t : Fin cfg0.N) (r : Fin 5000) : Fin 100000 :=
  ⟨t.val * 5000 + r.val, by have := t.isLt; have hN : grid0.N = 20 := N_0; have hc : cfg0.N = grid0.N := rfl; have := r.isLt; omega⟩

/-- Where x's block at point t sits in x. -/
theorem emb_x (t : Fin cfg0.N) (r : Fin 5000) (k : Fin 128) :
    ((cfg0.win 0).blk t).view.emb (ix2 r k) = ix2 (rowAt t r) k := by
  obtain ⟨e0, e1, -⟩ := block_index t
  funext a; apply Fin.ext
  match a with
  | ⟨0, _⟩ => show win0_0.index t (0 : Fin 2) * 5000 + 1 * r.val = t.val * 5000 + r.val; omega
  | ⟨1, _⟩ => show win0_0.index t (1 : Fin 2) * 128 + 1 * k.val = k.val; omega

/-- w's block at every point is w. -/
theorem emb_w (t : Fin cfg0.N) (k : Fin 128) (q : Fin 128) :
    ((cfg0.win 1).blk t).view.emb (ix2 k q) = ix2 k q := by
  obtain ⟨-, -, e0, e1, -⟩ := block_index t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- b's block at every point is b. -/
theorem emb_b (t : Fin cfg0.N) (z : Fin 1) (q : Fin 128) :
    ((cfg0.win 2).blk t).view.emb (ix2 z q) = ix2 z q := by
  obtain ⟨-, -, -, -, e0, e1, -⟩ := block_index t
  funext a; apply Fin.ext
  match a with
  | ⟨0, _⟩ => show win0_2.index t (0 : Fin 2) * 1 + 1 * z.val = z.val; omega
  | ⟨1, _⟩ => show win0_2.index t (1 : Fin 2) * 128 + 1 * q.val = q.val; omega

/-- Where the output's block at point t sits in the output. -/
theorem emb_o (t : Fin cfg0.N) (r : Fin 5000) (q : Fin 128) :
    ((cfg0.win 3).blk t).view.emb (ix2 r q) = ix2 (rowAt t r) q := by
  obtain ⟨-, -, -, -, -, -, e0, e1⟩ := block_index t
  funext a; apply Fin.ext
  match a with
  | ⟨0, _⟩ => show win0_3.index t (0 : Fin 2) * 5000 + 1 * r.val = t.val * 5000 + r.val; omega
  | ⟨1, _⟩ => show win0_3.index t (1 : Fin 2) * 128 + 1 * q.val = q.val; omega

/-- WHAT POINT t WRITES BACK is block t of x · w + b of the arrays as the region finds them. -/
theorem flushed_eq (c : Dev nD) (t : Fin cfg0.N) :
    (dat0 (F := Ideal) V c).flushed 3 t
      = ((cfg0.win 3).blk t).view.read (Elt Ideal) (Cert.Spec.lin128 (V c main_arg0) (V c main_arg2) (V c main_v15)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  funext j
  obtain ⟨r, q, rfl⟩ : ∃ (r : Fin 5000) (q : Fin 128), j = ix2 r q := ⟨j 0, j 1, eq_ix2 j⟩
  show k0_pay1 (F := Ideal) (iblk0 V c 0 t) (iblk0 V c 1 t) (iblk0 V c 2 t) (ix2 r q)
    = Cert.Spec.lin128 (V c main_arg0) (V c main_arg2) (V c main_v15) (((cfg0.win 3).blk t).view.emb (ix2 r q))
  refine (LinPay.k0_pay1_apply (iblk0 V c 0 t) (iblk0 V c 1 t) (iblk0 V c 2 t) r q).trans ?_
  rw [emb_o t r q, Cert.Spec.lin128_apply]
  refine congrArg₂ (· + ·) (Finset.sum_congr rfl fun k _ => congrArg₂ (· * ·) ?_ ?_) ?_
  · show V c main_arg0 (((cfg0.win 0).blk t).view.emb (ix2 r k)) = _
    rw [emb_x t r k]
  · show V c main_arg2 (((cfg0.win 1).blk t).view.emb (ix2 k q)) = _
    rw [emb_w t k q]
  · show V c main_v15 (((cfg0.win 2).blk t).view.emb (ix2 (0 : Fin 1) q)) = _
    rw [emb_b t 0 q]

/-- An index of the output is in point t's block iff each coordinate is in the block's range on its axis. -/
theorem mem_blk (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the output is in the block of the point its row falls to: row p belongs to point p / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have hc : cfg0.N = grid0.N := rfl
  let t : Fin cfg0.N := ⟨(i 0).val / 5000, by omega⟩
  obtain ⟨-, -, -, -, -, -, e0, e1⟩ := block_index t
  have ht : t.val = (i 0).val / 5000 := rfl
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after region 0's run, from the entry contents `V`. -/
theorem arr (c : Dev nD) :
    (dat0 (F := Ideal) V c).arrAt 3 cfg0.N = Cert.Spec.lin128 (V c main_arg0) (V c main_arg2) (V c main_v15) :=
  (dat0 (F := Ideal) V c).arrAt_eq_of_cover 3 (Cert.Spec.lin128 (V c main_arg0) (V c main_arg2) (V c main_v15))
    (fun t _ => flushed_eq V c t) cover

end Cert.KernelIdeal.Reg0

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.NormPay.lean ====
/-
  The body of the two normalise-and-clip regions, read at one entry of its [5000, 128] block: the entry divided by the
  length of its row (the square root of the row's sum of squares, kept from below by the small literal), then the
  positive part. The two regions' bodies are the same operations, so the same statement holds for both.
-/
import proofs.«171047_j64132451664423_1_alg».proof.Proof.Gen.KernelIdeal.Skeleton
import proofs.«171047_j64132451664423_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NormPay

open Cert.KernelIdeal Cert.KernelIdeal.Gen
open Idealize.ShloMosaic Idealize.ShloMosaic.ValueIdx

/-- The normalise-and-clip body at an entry: the entry divided by its row's length (the square root of the row's sum of
    squares, not below the small literal), then the positive part. -/
theorem k1_pay1_apply (x0 : Vec Ideal S5000x128 .f32) (r : Fin 5000) (q : Fin 128) :
    k1_pay1 x0 (ix2 r q)
      = max (Ideal.div (x0 (ix2 r q)) (max (Ideal.sqrt (∑ k : Fin 128, x0 (ix2 r k) * x0 (ix2 r k))) (Ideal.ofBits .f32 0x2B8CBCCC#32)))
          (Ideal.ofBits .f32 0x00000000#32) := by
  unfold k1_pay1
  simp only [shapeCast_self]
  -- the two outer pointwise operations, read at (r, q)
  show max (Ideal.div (x0 (ix2 r q)) (broadcastTo S5000x128 _ broadcasts_S5000x1_S5000x128 (ix2 r q))) (Ideal.ofBits .f32 0x00000000#32) = _
  refine congrArg (fun z => max (Ideal.div (x0 (ix2 r q)) z) (Ideal.ofBits .f32 0x00000000#32)) ?_
  -- the column of row lengths broadcast along the row: its entry of row r
  refine (Cert.Keepdims.broadcastTo_a1_ab_apply _ broadcasts_S5000x1_S5000x128 r q).trans ?_
  show max (Ideal.sqrt (shapeCast S5000x1 _ shapeCasts_S5000_S5000x1 (ix2 r (0 : Fin 1)))) (Ideal.ofBits .f32 0x2B8CBCCC#32) = _
  refine congrArg (fun z => max (Ideal.sqrt z) (Ideal.ofBits .f32 0x2B8CBCCC#32)) ?_
  -- the vector of row sums kept as a column, then the row sum itself
  refine (Cert.Keepdims.shapeCast_a_a1_apply _ shapeCasts_S5000_S5000x1 r (0 : Fin 1)).trans ?_
  exact Cert.Keepdims.rowSum_apply (mulf x0 x0) reduces_S5000x128_S5000 _ _ r

/-- The normalise-and-clip body at an entry: the entry divided by its row's length (the square root of the row's sum of
    squares, not below the small literal), then the positive part. -/
theorem k3_pay1_apply (x0 : Vec Ideal S5000x128 .f32) (r : Fin 5000) (q : Fin 128) :
    k3_pay1 x0 (ix2 r q)
      = max (Ideal.div (x0 (ix2 r q)) (max (Ideal.sqrt (∑ k : Fin 128, x0 (ix2 r k) * x0 (ix2 r k))) (Ideal.ofBits .f32 0x2B8CBCCC#32)))
          (Ideal.ofBits .f32 0x00000000#32) := by
  unfold k3_pay1
  simp only [shapeCast_self]
  -- the two outer pointwise operations, read at (r, q)
  show max (Ideal.div (x0 (ix2 r q)) (broadcastTo S5000x128 _ broadcasts_S5000x1_S5000x128 (ix2 r q))) (Ideal.ofBits .f32 0x00000000#32) = _
  refine congrArg (fun z => max (Ideal.div (x0 (ix2 r q)) z) (Ideal.ofBits .f32 0x00000000#32)) ?_
  -- the column of row lengths broadcast along the row: its entry of row r
  refine (Cert.Keepdims.broadcastTo_a1_ab_apply _ broadcasts_S5000x1_S5000x128 r q).trans ?_
  show max (Ideal.sqrt (shapeCast S5000x1 _ shapeCasts_S5000_S5000x1 (ix2 r (0 : Fin 1)))) (Ideal.ofBits .f32 0x2B8CBCCC#32) = _
  refine congrArg (fun z => max (Ideal.sqrt z) (Ideal.ofBits .f32 0x2B8CBCCC#32)) ?_
  -- the vector of row sums kept as a column, then the row sum itself
  refine (Cert.Keepdims.shapeCast_a_a1_apply _ shapeCasts_S5000_S5000x1 r (0 : Fin 1)).trans ?_
  exact Cert.Keepdims.rowSum_apply (mulf x0 x0) reduces_S5000x128_S5000 _ _ r

end Cert.KernelIdeal.NormPay

end
-- ==== Proof.Reg1.lean ====
/-
  Region 1 of the kernel's program as ONE function of the arrays it finds at entry: what its write-backs leave in
  the output array. Each of the 20 grid points t writes rows 5000·t … 5000·t + 4999 of the normalised and clipped
  input: an entry's row lies whole inside its point's block, so the row's sum of squares is taken over the same 128
  entries in the block as in the array; the 20 row blocks fill the 100000 rows.
-/
import proofs.«171047_j64132451664423_1_alg».proof.Proof.Gen.KernelIdeal.Frame
import proofs.«171047_j64132451664423_1_alg».proof.Proof.Spec
import proofs.«171047_j64132451664423_1_alg».proof.Proof.NormPay
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The two printed index maps, decided over the grid: at point t both windows sit at row block t, column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem N_lt (t : Fin cfg1.N) : t.val < 20 :=
  lt_of_lt_of_eq t.isLt N_1

/-- The input block at point t, entry (r, k): the array at row t·5000 + r, column k. -/
theorem iblk_apply (c : Dev nD) (t : Fin cfg1.N) (r : Fin 5000) (k : Fin 128) (h : t.val * 5000 + r.val < 100000) :
    (iblk1 V c 0 t : Vec Ideal S5000x128 .f32) (ix2 r k)
      = (V c main_v46 : S100000x128.Idx → EReal) (ix2 (⟨t.val * 5000 + r.val, h⟩ : Fin 100000) k) := by
  obtain ⟨e0, e1, e2, e3⟩ := idx_facts t
  unfold iblk1
  rw [View.read_apply]
  show V c main_v46 _ = V c main_v46 _
  congr 1
  funext a
  apply Fin.ext
  match a with
  | ⟨0, _⟩ => show win1_0.index t (0 : Fin 2) * 5000 + 1 * r.val = t.val * 5000 + r.val; omega
  | ⟨1, _⟩ => show win1_0.index t (1 : Fin 2) * 128 + 1 * k.val = k.val; omega

/-- The output block's entry (r, q) at point t sits in the array at row t·5000 + r, column q. -/
theorem oemb_apply (t : Fin cfg1.N) (r : Fin 5000) (q : Fin 128) (h : t.val * 5000 + r.val < 100000) :
    ((cfg1.win 1).blk t).view.emb (ix2 r q) = (ix2 (⟨t.val * 5000 + r.val, h⟩ : Fin 100000) q : S100000x128.Idx) := by
  obtain ⟨e0, e1, e2, e3⟩ := idx_facts t
  funext a
  apply Fin.ext
  match a with
  | ⟨0, _⟩ => show win1_1.index t (0 : Fin 2) * 5000 + 1 * r.val = t.val * 5000 + r.val; omega
  | ⟨1, _⟩ => show win1_1.index t (1 : Fin 2) * 128 + 1 * q.val = q.val; omega

/-- WHAT POINT t WRITES BACK is block t of the normalised and clipped array. -/
theorem flushed_eq (c : Dev nD) (t : Fin cfg1.N) :
    (dat1 (F := Ideal) V c).flushed 1 t = ((cfg1.win 1).blk t).view.read (Elt Ideal) (Cert.Spec.normRelu (V c main_v46)) := by
  show (cfg1.win 1).cut (grid1.coords t) ((dat1 V c).after 1 t) = _
  rw [after1_1]
  unfold out1_1
  rw [View.canon_unit_zero hz]
  simp only [View.ld_unit_zero (S := S5000x128) hz]
  funext j
  obtain ⟨r, q, rfl⟩ : ∃ (r : Fin 5000) (q : Fin 128), j = ix2 r q := ⟨j 0, j 1, eq_ix2 j⟩
  have ht := N_lt t
  have hr : t.val * 5000 + r.val < 100000 := by have := r.isLt; omega
  show k1_pay1 (iblk1 V c 0 t) (ix2 r q) = Cert.Spec.normRelu (V c main_v46) (((cfg1.win 1).blk t).view.emb (ix2 r q))
  refine (Cert.KernelIdeal.NormPay.k1_pay1_apply (iblk1 V c 0 t) r q).trans ?_
  rw [oemb_apply t r q hr, Cert.Spec.normRelu_apply]
  unfold Cert.Spec.rowSq
  simp only [iblk_apply V c t r _ hr]

/-- An index of the array is in point t's block iff each coordinate is in the block's range on its axis. -/
theorem mem_blk (t : Fin cfg1.N) (i : S100000x128.Idx) :
    i ∈ ((cfg1.win 1).blk t).view.set ↔ ∀ a : Fin 2, win1_1.index t a * S5000x128.size a ≤ (i a).val ∧ (i a).val < win1_1.index t a * S5000x128.size a + S5000x128.size a := by
  show i ∈ ((View.whole main_v47).slice (win1_1.rect t)).set ↔ _
  rw [View.set_slice_whole, Rect.mem_set_unit]
  exact Iff.rfl

/-- Every index of the array is in the block of the point its row falls in (row r is in block r / 5000). -/
theorem cover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  obtain ⟨e0, e1, e2, e3⟩ := idx_facts t
  have ht : t.val = (i 0).val / 5000 := rfl
  refine ⟨t, flush1_1 t, ?_⟩
  rw [mem_blk]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 128 ≤ (i 1).val ∧ (i 1).val < win1_1.index t (1 : Fin 2) * 128 + 128; omega

/-- The output array after region 1's run, from the entry contents `V`. -/
theorem arr (c : Dev nD) :
    (dat1 (F := Ideal) V c).arrAt 1 cfg1.N = Cert.Spec.normRelu (V c main_v46) := by
  exact (dat1 (F := Ideal) V c).arrAt_eq_of_cover 1 (Cert.Spec.normRelu (V c main_v46)) (fun t _ => flushed_eq V c t) cover

end Cert.KernelIdeal.Reg1

end
-- ==== Proof.Reg2.lean ====
/-
  Region 2 of the kernel's program as ONE function of the arrays it finds at entry: what its write-backs leave in
  the output array. Each of the 20 grid points t writes rows 5000·t … 5000·t + 4999 of x · w + b: its block of x is
  those rows of x, and w and b are whole at every point; the 20 row blocks fill the 100000 rows.
-/
import proofs.«171047_j64132451664423_1_alg».proof.Proof.Gen.KernelIdeal.Frame
import proofs.«171047_j64132451664423_1_alg».proof.Proof.Spec
import proofs.«171047_j64132451664423_1_alg».proof.Proof.LinPay
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: point t takes row block t of x and of the output, and block (0, 0) of
    w and b. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of point t's block is row 5000·t + r of the array. -/
abbrev rowAt (t : Fin cfg2.N) (r : Fin 5000) : Fin 100000 :=
  ⟨t.val * 5000 + r.val, by have := t.isLt; have hN : grid2.N = 20 := N_2; have hc : cfg2.N = grid2.N := rfl; have := r.isLt; omega⟩

/-- Where x's block at point t sits in x. -/
theorem emb_x (t : Fin cfg2.N) (r : Fin 5000) (k : Fin 128) :
    ((cfg2.win 0).blk t).view.emb (ix2 r k) = ix2 (rowAt t r) k := by
  obtain ⟨e0, e1, -⟩ := block_index t
  funext a; apply Fin.ext
  match a with
  | ⟨0, _⟩ => show win2_0.index t (0 : Fin 2) * 5000 + 1 * r.val = t.val * 5000 + r.val; omega
  | ⟨1, _⟩ => show win2_0.index t (1 : Fin 2) * 128 + 1 * k.val = k.val; omega

/-- w's block at every point is w. -/
theorem emb_w (t : Fin cfg2.N) (k : Fin 128) (q : Fin 128) :
    ((cfg2.win 1).blk t).view.emb (ix2 k q) = ix2 k q := by
  obtain ⟨-, -, e0, e1, -⟩ := block_index t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- b's block at every point is b. -/
theorem emb_b (t : Fin cfg2.N) (z : Fin 1) (q : Fin 128) :
    ((cfg2.win 2).blk t).view.emb (ix2 z q) = ix2 z q := by
  obtain ⟨-, -, -, -, e0, e1, -⟩ := block_index t
  funext a; apply Fin.ext
  match a with
  | ⟨0, _⟩ => show win2_2.index t (0 : Fin 2) * 1 + 1 * z.val = z.val; omega
  | ⟨1, _⟩ => show win2_2.index t (1 : Fin 2) * 128 + 1 * q.val = q.val; omega

/-- Where the output's block at point t sits in the output. -/
theorem emb_o (t : Fin cfg2.N) (r : Fin 5000) (q : Fin 128) :
    ((cfg2.win 3).blk t).view.emb (ix2 r q) = ix2 (rowAt t r) q := by
  obtain ⟨-, -, -, -, -, -, e0, e1⟩ := block_index t
  funext a; apply Fin.ext
  match a with
  | ⟨0, _⟩ => show win2_3.index t (0 : Fin 2) * 5000 + 1 * r.val = t.val * 5000 + r.val; omega
  | ⟨1, _⟩ => show win2_3.index t (1 : Fin 2) * 128 + 1 * q.val = q.val; omega

/-- WHAT POINT t WRITES BACK is block t of x · w + b of the arrays as the region finds them. -/
theorem flushed_eq (c : Dev nD) (t : Fin cfg2.N) :
    (dat2 (F := Ideal) V c).flushed 3 t
      = ((cfg2.win 3).blk t).view.read (Elt Ideal) (Cert.Spec.lin128 (V c main_v47) (V c main_arg4) (V c main_v48)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets,
    View.ld_unit_zero (S := S1x128) zero_offsets]
  funext j
  obtain ⟨r, q, rfl⟩ : ∃ (r : Fin 5000) (q : Fin 128), j = ix2 r q := ⟨j 0, j 1, eq_ix2 j⟩
  show k2_pay1 (F := Ideal) (iblk2 V c 0 t) (iblk2 V c 1 t) (iblk2 V c 2 t) (ix2 r q)
    = Cert.Spec.lin128 (V c main_v47) (V c main_arg4) (V c main_v48) (((cfg2.win 3).blk t).view.emb (ix2 r q))
  refine (LinPay.k2_pay1_apply (iblk2 V c 0 t) (iblk2 V c 1 t) (iblk2 V c 2 t) r q).trans ?_
  rw [emb_o t r q, Cert.Spec.lin128_apply]
  refine congrArg₂ (· + ·) (Finset.sum_congr rfl fun k _ => congrArg₂ (· * ·) ?_ ?_) ?_
  · show V c main_v47 (((cfg2.win 0).blk t).view.emb (ix2 r k)) = _
    rw [emb_x t r k]
  · show V c main_arg4 (((cfg2.win 1).blk t).view.emb (ix2 k q)) = _
    rw [emb_w t k q]
  · show V c main_v48 (((cfg2.win 2).blk t).view.emb (ix2 (0 : Fin 1) q)) = _
    rw [emb_b t 0 q]

/-- An index of the output is in point t's block iff each coordinate is in the block's range on its axis. -/
theorem mem_blk (t : Fin cfg2.N) (i : S100000x128.Idx) :
    i ∈ ((cfg2.win 3).blk t).view.set
      ↔ ∀ a : Fin 2, win2_3.index t a * S5000x128.size a ≤ (i a).val ∧ (i a).val < win2_3.index t a * S5000x128.size a + S5000x128.size a := by
  show i ∈ ((View.whole main_v49).slice (win2_3.rect t)).set ↔ _
  rw [View.set_slice_whole, Rect.mem_set_unit]
  exact Iff.rfl

/-- Every index of the output is in the block of the point its row falls to: row p belongs to point p / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  have hc : cfg2.N = grid2.N := rfl
  let t : Fin cfg2.N := ⟨(i 0).val / 5000, by omega⟩
  obtain ⟨-, -, -, -, -, -, e0, e1⟩ := block_index t
  have ht : t.val = (i 0).val / 5000 := rfl
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The output array after region 2's run, from the entry contents `V`. -/
theorem arr (c : Dev nD) :
    (dat2 (F := Ideal) V c).arrAt 3 cfg2.N = Cert.Spec.lin128 (V c main_v47) (V c main_arg4) (V c main_v48) :=
  (dat2 (F := Ideal) V c).arrAt_eq_of_cover 3 (Cert.Spec.lin128 (V c main_v47) (V c main_arg4) (V c main_v48))
    (fun t _ => flushed_eq V c t) cover

end Cert.KernelIdeal.Reg2

end
-- ==== Proof.Reg3.lean ====
/-
  Region 3 of the kernel's program as ONE function of the arrays it finds at entry: what its write-backs leave in
  the output array. Each of the 20 grid points t writes rows 5000·t … 5000·t + 4999 of the normalised and clipped
  input: an entry's row lies whole inside its point's block, so the row's sum of squares is taken over the same 128
  entries in the block as in the array; the 20 row blocks fill the 100000 rows.
-/
import proofs.«171047_j64132451664423_1_alg».proof.Proof.Gen.KernelIdeal.Frame
import proofs.«171047_j64132451664423_1_alg».proof.Proof.Spec
import proofs.«171047_j64132451664423_1_alg».proof.Proof.NormPay
import Idealize.ShloMosaic.Lib.Pipeline.Value
import Idealize.ShloMosaic.Lib.ValueIdx
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The two printed index maps, decided over the grid: at point t both windows sit at row block t, column block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

theorem N_lt (t : Fin cfg3.N) : t.val < 20 :=
  lt_of_lt_of_eq t.isLt N_3

/-- The input block at point t, entry (r, k): the array at row t·5000 + r, column k. -/
theorem iblk_apply (c : Dev nD) (t : Fin cfg3.N) (r : Fin 5000) (k : Fin 128) (h : t.val * 5000 + r.val < 100000) :
    (iblk3 V c 0 t : Vec Ideal S5000x128 .f32) (ix2 r k)
      = (V c main_v79 : S100000x128.Idx → EReal) (ix2 (⟨t.val * 5000 + r.val, h⟩ : Fin 100000) k) := by
  obtain ⟨e0, e1, e2, e3⟩ := idx_facts t
  unfold iblk3
  rw [View.read_apply]
  show V c main_v79 _ = V c main_v79 _
  congr 1
  funext a
  apply Fin.ext
  match a with
  | ⟨0, _⟩ => show win3_0.index t (0 : Fin 2) * 5000 + 1 * r.val = t.val * 5000 + r.val; omega
  | ⟨1, _⟩ => show win3_0.index t (1 : Fin 2) * 128 + 1 * k.val = k.val; omega

/-- The output block's entry (r, q) at point t sits in the array at row t·5000 + r, column q. -/
theorem oemb_apply (t : Fin cfg3.N) (r : Fin 5000) (q : Fin 128) (h : t.val * 5000 + r.val < 100000) :
    ((cfg3.win 1).blk t).view.emb (ix2 r q) = (ix2 (⟨t.val * 5000 + r.val, h⟩ : Fin 100000) q : S100000x128.Idx) := by
  obtain ⟨e0, e1, e2, e3⟩ := idx_facts t
  funext a
  apply Fin.ext
  match a with
  | ⟨0, _⟩ => show win3_1.index t (0 : Fin 2) * 5000 + 1 * r.val = t.val * 5000 + r.val; omega
  | ⟨1, _⟩ => show win3_1.index t (1 : Fin 2) * 128 + 1 * q.val = q.val; omega

/-- WHAT POINT t WRITES BACK is block t of the normalised and clipped array. -/
theorem flushed_eq (c : Dev nD) (t : Fin cfg3.N) :
    (dat3 (F := Ideal) V c).flushed 1 t = ((cfg3.win 1).blk t).view.read (Elt Ideal) (Cert.Spec.normRelu (V c main_v79)) := by
  show (cfg3.win 1).cut (grid3.coords t) ((dat3 V c).after 1 t) = _
  rw [after3_1]
  unfold out3_1
  rw [View.canon_unit_zero hz]
  simp only [View.ld_unit_zero (S := S5000x128) hz]
  funext j
  obtain ⟨r, q, rfl⟩ : ∃ (r : Fin 5000) (q : Fin 128), j = ix2 r q := ⟨j 0, j 1, eq_ix2 j⟩
  have ht := N_lt t
  have hr : t.val * 5000 + r.val < 100000 := by have := r.isLt; omega
  show k3_pay1 (iblk3 V c 0 t) (ix2 r q) = Cert.Spec.normRelu (V c main_v79) (((cfg3.win 1).blk t).view.emb (ix2 r q))
  refine (Cert.KernelIdeal.NormPay.k3_pay1_apply (iblk3 V c 0 t) r q).trans ?_
  rw [oemb_apply t r q hr, Cert.Spec.normRelu_apply]
  unfold Cert.Spec.rowSq
  simp only [iblk_apply V c t r _ hr]

/-- An index of the array is in point t's block iff each coordinate is in the block's range on its axis. -/
theorem mem_blk (t : Fin cfg3.N) (i : S100000x128.Idx) :
    i ∈ ((cfg3.win 1).blk t).view.set ↔ ∀ a : Fin 2, win3_1.index t a * S5000x128.size a ≤ (i a).val ∧ (i a).val < win3_1.index t a * S5000x128.size a + S5000x128.size a := by
  show i ∈ ((View.whole main_v80).slice (win3_1.rect t)).set ↔ _
  rw [View.set_slice_whole, Rect.mem_set_unit]
  exact Iff.rfl

/-- Every index of the array is in the block of the point its row falls in (row r is in block r / 5000). -/
theorem cover (i : S100000x128.Idx) :
    ∃ t : Fin cfg3.N, (cfg3.win 1).flush t = true ∧ i ∈ ((cfg3.win 1).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; omega⟩
  obtain ⟨e0, e1, e2, e3⟩ := idx_facts t
  have ht : t.val = (i 0).val / 5000 := rfl
  refine ⟨t, flush3_1 t, ?_⟩
  rw [mem_blk]
  intro a
  match a with
  | ⟨0, _⟩ => show win3_1.index t (0 : Fin 2) * 5000 ≤ (i 0).val ∧ (i 0).val < win3_1.index t (0 : Fin 2) * 5000 + 5000; omega
  | ⟨1, _⟩ => show win3_1.index t (1 : Fin 2) * 128 ≤ (i 1).val ∧ (i 1).val < win3_1.index t (1 : Fin 2) * 128 + 128; omega

/-- The output array after region 3's run, from the entry contents `V`. -/
theorem arr (c : Dev nD) :
    (dat3 (F := Ideal) V c).arrAt 1 cfg3.N = Cert.Spec.normRelu (V c main_v79) := by
  exact (dat3 (F := Ideal) V c).arrAt_eq_of_cover 1 (Cert.Spec.normRelu (V c main_v79)) (fun t _ => flushed_eq V c t) cover

end Cert.KernelIdeal.Reg3

end
-- ==== Proof.Reg4.lean ====
/-
  Region 4 of the kernel's program as ONE function of the arrays it finds at entry: what its write-backs leave in
  the output array. Each of the 20 grid points t writes rows 5000·t … 5000·t + 4999 of x · w + b: its block of x is
  those rows of x, and w and b are whole at every point; the 20 row blocks fill the 100000 rows.
-/
import proofs.«171047_j64132451664423_1_alg».proof.Proof.Gen.KernelIdeal.Frame
import proofs.«171047_j64132451664423_1_alg».proof.Proof.Spec
import proofs.«171047_j64132451664423_1_alg».proof.Proof.LinPay
import Idealize.ShloMosaic.Lib.Pipeline.Value
import Idealize.ShloMosaic.Lib.ValueIdx
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: point t takes row block t of x and of the output, and block (0, 0) of
    w and b. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row r of point t's block is row 5000·t + r of the array. -/
abbrev rowAt (t : Fin cfg4.N) (r : Fin 5000) : Fin 100000 :=
  ⟨t.val * 5000 + r.val, by have := t.isLt; have hN : grid4.N = 20 := N_4; have hc : cfg4.N = grid4.N := rfl; have := r.isLt; omega⟩

/-- Where x's block at point t sits in x. -/
theorem emb_x (t : Fin cfg4.N) (r : Fin 5000) (k : Fin 128) :
    ((cfg4.win 0).blk t).view.emb (ix2 r k) = ix2 (rowAt t r) k := by
  obtain ⟨e0, e1, -⟩ := block_index t
  funext a; apply Fin.ext
  match a with
  | ⟨0, _⟩ => show win4_0.index t (0 : Fin 2) * 5000 + 1 * r.val = t.val * 5000 + r.val; omega
  | ⟨1, _⟩ => show win4_0.index t (1 : Fin 2) * 128 + 1 * k.val = k.val; omega

/-- w's block at every point is w. -/
theorem emb_w (t : Fin cfg4.N) (k : Fin 128) (q : Fin 64) :
    ((cfg4.win 1).blk t).view.emb (ix2 k q) = ix2 k q := by
  obtain ⟨-, -, e0, e1, -⟩ := block_index t
  funext a; apply Fin.ext
  match a with
  | ⟨0, _⟩ => show win4_1.index t (0 : Fin 2) * 128 + 1 * k.val = k.val; omega
  | ⟨1, _⟩ => show win4_1.index t (1 : Fin 2) * 64 + 1 * q.val = q.val; omega

/-- b's block at every point is b. -/
theorem emb_b (t : Fin cfg4.N) (z : Fin 1) (q : Fin 64) :
    ((cfg4.win 2).blk t).view.emb (ix2 z q) = ix2 z q := by
  obtain ⟨-, -, -, -, e0, e1, -⟩ := block_index t
  funext a; apply Fin.ext
  match a with
  | ⟨0, _⟩ => show win4_2.index t (0 : Fin 2) * 1 + 1 * z.val = z.val; omega
  | ⟨1, _⟩ => show win4_2.index t (1 : Fin 2) * 64 + 1 * q.val = q.val; omega

/-- Where the output's block at point t sits in the output. -/
theorem emb_o (t : Fin cfg4.N) (r : Fin 5000) (q : Fin 64) :
    ((cfg4.win 3).blk t).view.emb (ix2 r q) = ix2 (rowAt t r) q := by
  obtain ⟨-, -, -, -, -, -, e0, e1⟩ := block_index t
  funext a; apply Fin.ext
  match a with
  | ⟨0, _⟩ => show win4_3.index t (0 : Fin 2) * 5000 + 1 * r.val = t.val * 5000 + r.val; omega
  | ⟨1, _⟩ => show win4_3.index t (1 : Fin 2) * 64 + 1 * q.val = q.val; omega

/-- WHAT POINT t WRITES BACK is block t of x · w + b of the arrays as the region finds them. -/
theorem flushed_eq (c : Dev nD) (t : Fin cfg4.N) :
    (dat4 (F := Ideal) V c).flushed 3 t
      = ((cfg4.win 3).blk t).view.read (Elt Ideal) (Cert.Spec.lin64 (V c main_v80) (V c main_arg6) (V c main_v81)) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S128x64) zero_offsets,
    View.ld_unit_zero (S := S1x64) zero_offsets]
  funext j
  obtain ⟨r, q, rfl⟩ : ∃ (r : Fin 5000) (q : Fin 64), j = ix2 r q := ⟨j 0, j 1, eq_ix2 j⟩
  show k4_pay1 (F := Ideal) (iblk4 V c 0 t) (iblk4 V c 1 t) (iblk4 V c 2 t) (ix2 r q)
    = Cert.Spec.lin64 (V c main_v80) (V c main_arg6) (V c main_v81) (((cfg4.win 3).blk t).view.emb (ix2 r q))
  refine (LinPay.k4_pay1_apply (iblk4 V c 0 t) (iblk4 V c 1 t) (iblk4 V c 2 t) r q).trans ?_
  rw [emb_o t r q, Cert.Spec.lin64_apply]
  refine congrArg₂ (· + ·) (Finset.sum_congr rfl fun k _ => congrArg₂ (· * ·) ?_ ?_) ?_
  · show V c main_v80 (((cfg4.win 0).blk t).view.emb (ix2 r k)) = _
    rw [emb_x t r k]
  · show V c main_arg6 (((cfg4.win 1).blk t).view.emb (ix2 k q)) = _
    rw [emb_w t k q]
  · show V c main_v81 (((cfg4.win 2).blk t).view.emb (ix2 (0 : Fin 1) q)) = _
    rw [emb_b t 0 q]

/-- An index of the output is in point t's block iff each coordinate is in the block's range on its axis. -/
theorem mem_blk (t : Fin cfg4.N) (i : S100000x64.Idx) :
    i ∈ ((cfg4.win 3).blk t).view.set
      ↔ ∀ a : Fin 2, win4_3.index t a * S5000x64.size a ≤ (i a).val ∧ (i a).val < win4_3.index t a * S5000x64.size a + S5000x64.size a := by
  show i ∈ ((View.whole main_v82).slice (win4_3.rect t)).set ↔ _
  rw [View.set_slice_whole, Rect.mem_set_unit]
  exact Iff.rfl

/-- Every index of the output is in the block of the point its row falls to: row p belongs to point p / 5000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 20 := N_4
  have hc : cfg4.N = grid4.N := rfl
  let t : Fin cfg4.N := ⟨(i 0).val / 5000, by omega⟩
  obtain ⟨-, -, -, -, -, -, e0, e1⟩ := block_index t
  have ht : t.val = (i 0).val / 5000 := rfl
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 64 ≤ (i 1).val ∧ (i 1).val < win4_3.index t (1 : Fin 2) * 64 + 64
    omega

/-- The output array after region 4's run, from the entry contents `V`. -/
theorem arr (c : Dev nD) :
    (dat4 (F := Ideal) V c).arrAt 3 cfg4.N = Cert.Spec.lin64 (V c main_v80) (V c main_arg6) (V c main_v81) :=
  (dat4 (F := Ideal) V c).arrAt_eq_of_cover 3 (Cert.Spec.lin64 (V c main_v80) (V c main_arg6) (V c main_v81))
    (fun t _ => flushed_eq V c t) cover

end Cert.KernelIdeal.Reg4

end
-- ==== Proof.RefBridge.lean ====
/-
  The reference's stages against the per-layer maps: each linear layer of the reference (a host dot_general plus the
  broadcast bias) is the map `lin` of its operands, and each normalise-and-clip block (row sums of squares, square
  root, the floor eps, the quotient, the positive part) is `normRelu` of its operand. Each is read entry by entry: the host's matrix product as a sum over the contracted axis, the row sum of squares as
  the sum over the row's 128 columns from the zero word, the bias as the [128] vector re-laid as a row.
-/
import proofs.«171047_j64132451664423_1_alg».proof.Proof.RefRead
import proofs.«171047_j64132451664423_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefBridge

open Cert.ReferenceIdeal Cert.ReferenceIdeal.Gen Cert.ReferenceIdeal.ReadP
open Idealize.ShloMosaic Idealize.ShloMosaic.TcCoe Idealize.SL.Sem

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- A [128] vector re-laid as a [1, 128] row, read at (0, q), is the vector at q. -/
theorem row128_apply (b : S128.Idx → EReal) (h : S128.ShapeCasts S1x128) (q : Fin 128) :
    shapeCast S1x128 b h (ValueIdx.ix2 (0 : Fin 1) q) = b (ValueIdx.ix1 q) :=
  shapeCast_apply b h _ _ (by
    rewrite [Shape.rowMajor_val_two, Shape.rowMajor_val_one]
    show q.val = 0 * 128 + q.val
    omega)

/-- A [64] vector re-laid as a [1, 64] row, read at (0, q), is the vector at q. -/
theorem row64_apply (b : S64.Idx → EReal) (h : S64.ShapeCasts S1x64) (q : Fin 64) :
    shapeCast S1x64 b h (ValueIdx.ix2 (0 : Fin 1) q) = b (ValueIdx.ix1 q) :=
  shapeCast_apply b h _ _ (by
    rewrite [Shape.rowMajor_val_two, Shape.rowMajor_val_one]
    show q.val = 0 * 64 + q.val
    omega)

/-- Layer 0's linear map: the bias enters as a [1, 128] row, the [128] vector re-laid. -/
theorem lin1 (h : S128.ShapeCasts S1x128) :
    Cert.Spec.lin128 x0 x2 (shapeCast S1x128 x3 h) = val_main_v18 (F := Ideal) x0 x2 x3 := by
  funext i
  obtain ⟨p, q, rfl⟩ : ∃ (p : Fin 100000) (q : Fin 128), i = ValueIdx.ix2 p q := ⟨i 0, i 1, ValueIdx.eq_ix2 i⟩
  have hl : ∀ k : Fin 128, lidx_main_v15 (ValueIdx.ix2 p q) k = ValueIdx.ix2 p k := fun k =>
    funext fun a => Fin.ext (by match a with | ⟨0, _⟩ => rfl | ⟨1, _⟩ => rfl)
  have hr : ∀ k : Fin 128, ridx_main_v15 (ValueIdx.ix2 p q) k = ValueIdx.ix2 k q := fun k =>
    funext fun a => Fin.ext (by match a with | ⟨0, _⟩ => rfl | ⟨1, _⟩ => rfl)
  have hb : idx_main_v16 (idx_main_v17 (ValueIdx.ix2 p q)) = ValueIdx.ix1 q :=
    funext fun a => Fin.ext (by match a with | ⟨0, _⟩ => rfl)
  rw [Cert.Spec.lin128_apply, val_main_v18_apply, val_main_v15_apply, val_main_v17_apply, val_main_v16_apply]
  simp only [hl, hr, hb, row128_apply, Ideal.addf_def]

/-- Layer 0's normalise-and-clip. -/
theorem norm1 :
    Cert.Spec.normRelu (val_main_v51 (F := Ideal) x0 x1 x2 x3) = val_main_v60 (F := Ideal) x0 x1 x2 x3 := by
  funext i
  obtain ⟨p, q, rfl⟩ : ∃ (p : Fin 100000) (q : Fin 128), i = ValueIdx.ix2 p q := ⟨i 0, i 1, ValueIdx.eq_ix2 i⟩
  have hk : ∀ k : Fin 128, idx_main_v53 (idx_main_v54 (idx_main_v58 (ValueIdx.ix2 p q))) k = ValueIdx.ix2 p k := fun k =>
    funext fun a => Fin.ext (by match a with | ⟨0, _⟩ => rfl | ⟨1, _⟩ => rfl)
  rw [Cert.Spec.normRelu_apply, val_main_v60_apply, val_main_v59_apply, val_main_v58_apply, val_main_v57_apply,
    val_main_v55_apply, val_main_v54_apply, val_main_v53_apply, val_main_v56_apply, val_main_cst_12_apply,
    val_main_call1_v0_apply, val_main_call1_cst_apply, val_main_cst_11_apply]
  simp only [val_main_v52_apply, hk, Cert.Spec.rowSq, Ideal.maximumf_def, Ideal.hostDivf_def, Ideal.hostUnary_sqrt_def,
    Ideal.mulf_def, Ideal.ofBits_def, Ideal.ofBits_zero_f32, zero_add]

/-- Layer 1's linear map. -/
theorem lin2 (h : S128.ShapeCasts S1x128) :
    Cert.Spec.lin128 (val_main_v60 (F := Ideal) x0 x1 x2 x3) x4 (shapeCast S1x128 x5 h)
      = val_main_v64 (F := Ideal) x0 x1 x2 x3 x4 x5 := by
  funext i
  obtain ⟨p, q, rfl⟩ : ∃ (p : Fin 100000) (q : Fin 128), i = ValueIdx.ix2 p q := ⟨i 0, i 1, ValueIdx.eq_ix2 i⟩
  have hl : ∀ k : Fin 128, lidx_main_v61 (ValueIdx.ix2 p q) k = ValueIdx.ix2 p k := fun k =>
    funext fun a => Fin.ext (by match a with | ⟨0, _⟩ => rfl | ⟨1, _⟩ => rfl)
  have hr : ∀ k : Fin 128, ridx_main_v61 (ValueIdx.ix2 p q) k = ValueIdx.ix2 k q := fun k =>
    funext fun a => Fin.ext (by match a with | ⟨0, _⟩ => rfl | ⟨1, _⟩ => rfl)
  have hb : idx_main_v62 (idx_main_v63 (ValueIdx.ix2 p q)) = ValueIdx.ix1 q :=
    funext fun a => Fin.ext (by match a with | ⟨0, _⟩ => rfl)
  rw [Cert.Spec.lin128_apply, val_main_v64_apply, val_main_v61_apply, val_main_v63_apply, val_main_v62_apply]
  simp only [hl, hr, hb, row128_apply, Ideal.addf_def]

/-- Layer 1's normalise-and-clip. -/
theorem norm2 :
    Cert.Spec.normRelu (val_main_v97 (F := Ideal) x0 x1 x2 x3 x4 x5) = val_main_v106 (F := Ideal) x0 x1 x2 x3 x4 x5 := by
  funext i
  obtain ⟨p, q, rfl⟩ : ∃ (p : Fin 100000) (q : Fin 128), i = ValueIdx.ix2 p q := ⟨i 0, i 1, ValueIdx.eq_ix2 i⟩
  have hk : ∀ k : Fin 128, idx_main_v99 (idx_main_v100 (idx_main_v104 (ValueIdx.ix2 p q))) k = ValueIdx.ix2 p k := fun k =>
    funext fun a => Fin.ext (by match a with | ⟨0, _⟩ => rfl | ⟨1, _⟩ => rfl)
  rw [Cert.Spec.normRelu_apply, val_main_v106_apply, val_main_v105_apply, val_main_v104_apply, val_main_v103_apply,
    val_main_v101_apply, val_main_v100_apply, val_main_v99_apply, val_main_v102_apply, val_main_cst_23_apply,
    val_main_call2_v0_apply, val_main_call2_cst_apply, val_main_cst_22_apply]
  simp only [val_main_v98_apply, hk, Cert.Spec.rowSq, Ideal.maximumf_def, Ideal.hostDivf_def, Ideal.hostUnary_sqrt_def,
    Ideal.mulf_def, Ideal.ofBits_def, Ideal.ofBits_zero_f32, zero_add]

/-- The last linear map, 64 columns. -/
theorem lin3 (h : S64.ShapeCasts S1x64) :
    Cert.Spec.lin64 (val_main_v106 (F := Ideal) x0 x1 x2 x3 x4 x5) x6 (shapeCast S1x64 x7 h)
      = val_main_v110 (F := Ideal) x0 x1 x2 x3 x4 x5 x6 x7 := by
  funext i
  obtain ⟨p, q, rfl⟩ : ∃ (p : Fin 100000) (q : Fin 64), i = ValueIdx.ix2 p q := ⟨i 0, i 1, ValueIdx.eq_ix2 i⟩
  have hl : ∀ k : Fin 128, lidx_main_v107 (ValueIdx.ix2 p q) k = ValueIdx.ix2 p k := fun k =>
    funext fun a => Fin.ext (by match a with | ⟨0, _⟩ => rfl | ⟨1, _⟩ => rfl)
  have hr : ∀ k : Fin 128, ridx_main_v107 (ValueIdx.ix2 p q) k = ValueIdx.ix2 k q := fun k =>
    funext fun a => Fin.ext (by match a with | ⟨0, _⟩ => rfl | ⟨1, _⟩ => rfl)
  have hb : idx_main_v108 (idx_main_v109 (ValueIdx.ix2 p q)) = ValueIdx.ix1 q :=
    funext fun a => Fin.ext (by match a with | ⟨0, _⟩ => rfl)
  rw [Cert.Spec.lin64_apply, val_main_v110_apply, val_main_v107_apply, val_main_v109_apply, val_main_v108_apply]
  simp only [hl, hr, hb, row64_apply, Ideal.addf_def]

end Cert.RefBridge

end
-- ==== Proof.StageBridge.lean ====
/-
  The propagation step on the two sides. The kernel's program multiplies the aggregate by one; the reference adds to
  that zero times the layer's input. On the extended reals zero times anything is zero and zero is neutral for the
  sum, so the two are one function of the layer's input and the edge list. The aggregate itself (gather at the
  sources, scale by the two inverse square roots of the degrees, scatter-add at the targets) is spelt with the same
  operations in both programs.
-/
import proofs.«171047_j64132451664423_1_alg».proof.Proof.RefRead
import proofs.«171047_j64132451664423_1_alg».proof.Proof.KStages
import Idealize.ShloMosaic.Lib.Pipeline.Value
import Idealize.ShloMosaic.Lib.ValueIdx
import Idealize.ShloMosaic.PureOps.Ideal.Laws

noncomputable section

namespace Cert.StageBridge

open Idealize.ShloMosaic Idealize.ShloMosaic.TcCoe Idealize.SL.Sem
open Cert.KernelIdeal.Stages

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x128, .f32⟩ : BufTy).Contents (Elt Ideal)) (x5 : (⟨Cert.ReferenceIdeal.S128, .f32⟩ : BufTy).Contents (Elt Ideal))

/-- The aggregate alone: gather at the sources, scale by the two inverse square roots, scatter-add at the targets. Both
    programs spell it with the same operations of the edge list and of the layer's input. -/
theorem agg1 :
    aggK (F := Ideal) (dinvK x1) (rowK x1) (colK x1) (Cert.ReferenceIdeal.ReadP.val_main_v18 (F := Ideal) x0 x2 x3)
      = Cert.ReferenceIdeal.ReadP.val_main_v46 (F := Ideal) x0 x1 x2 x3 := rfl

theorem agg2 :
    aggK (F := Ideal) (dinvK x1) (rowK x1) (colK x1) (Cert.ReferenceIdeal.ReadP.val_main_v64 (F := Ideal) x0 x1 x2 x3 x4 x5)
      = Cert.ReferenceIdeal.ReadP.val_main_v92 (F := Ideal) x0 x1 x2 x3 x4 x5 := rfl

/-- The first propagation: the kernel program's step on layer 0's linear output is the reference's. -/
theorem gapp1 :
    gappK (F := Ideal) (dinvK x1) (rowK x1) (colK x1) (Cert.ReferenceIdeal.ReadP.val_main_v18 (F := Ideal) x0 x2 x3)
      = Cert.ReferenceIdeal.ReadP.val_main_v51 (F := Ideal) x0 x1 x2 x3 := by
  unfold gappK
  rw [agg1]
  funext i
  rw [Idealize.ShloMosaic.ValueIdx.mulf_apply, Cert.ReferenceIdeal.ReadP.val_main_v51_apply,
    Cert.ReferenceIdeal.ReadP.val_main_v48_apply, Cert.ReferenceIdeal.ReadP.val_main_v50_apply,
    Cert.ReferenceIdeal.ReadP.val_main_v47_apply, Cert.ReferenceIdeal.ReadP.val_main_cst_9_apply]
  -- zero times the layer's input is zero, and zero is neutral for the sum
  simp only [Ideal.ofBits_def, Ideal.mulf_def, Ideal.addf_def, Ideal.ofBits_zero_f32, zero_mul, zero_add]
  -- the two spellings of the broadcast literal one
  congr 1

/-- The second propagation. -/
theorem gapp2 :
    gappK (F := Ideal) (dinvK x1) (rowK x1) (colK x1) (Cert.ReferenceIdeal.ReadP.val_main_v64 (F := Ideal) x0 x1 x2 x3 x4 x5)
      = Cert.ReferenceIdeal.ReadP.val_main_v97 (F := Ideal) x0 x1 x2 x3 x4 x5 := by
  unfold gappK
  rw [agg2]
  funext i
  rw [Idealize.ShloMosaic.ValueIdx.mulf_apply, Cert.ReferenceIdeal.ReadP.val_main_v97_apply,
    Cert.ReferenceIdeal.ReadP.val_main_v94_apply, Cert.ReferenceIdeal.ReadP.val_main_v96_apply,
    Cert.ReferenceIdeal.ReadP.val_main_v93_apply, Cert.ReferenceIdeal.ReadP.val_main_cst_20_apply]
  simp only [Ideal.ofBits_def, Ideal.mulf_def, Ideal.addf_def, Ideal.ofBits_zero_f32, zero_mul, zero_add]
  congr 1

end Cert.StageBridge

end
-- ==== Proof.KValue.lean ====
/-
  The kernel program's result, read off its run: the last region's output array, walked back through the five
  regions and the host stretches between them, is the reference's last stage of the launch arguments. Each region
  contributes its per-layer map of what it finds at entry, each host stretch the propagation step or a re-laid bias.
-/
import proofs.«171047_j64132451664423_1_alg».proof.Proof.KHost
import proofs.«171047_j64132451664423_1_alg».proof.Proof.Reg0
import proofs.«171047_j64132451664423_1_alg».proof.Proof.Reg1
import proofs.«171047_j64132451664423_1_alg».proof.Proof.Reg2
import proofs.«171047_j64132451664423_1_alg».proof.Proof.Reg3
import proofs.«171047_j64132451664423_1_alg».proof.Proof.Reg4
import proofs.«171047_j64132451664423_1_alg».proof.Proof.RefBridge
import proofs.«171047_j64132451664423_1_alg».proof.Proof.StageBridge

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- Layer 0's linear output, as region 0 leaves it. -/
theorem v16 (c : Dev nD) :
    W4 m ρ c (Proc.devRef .tc main_v16)
      = Cert.ReferenceIdeal.ReadP.val_main_v18 (F := Ideal) (m ((c : Thread nD τ).loc main_arg0))
          (m ((c : Thread nD τ).loc main_arg2)) (m ((c : Thread nD τ).loc main_arg3)) := by
  refine (W4_arr m ρ c 3).trans ?_
  rw [Reg0.arr (V3 m ρ) c]
  show Cert.Spec.lin128 (W3 m ρ c (Proc.devRef .tc main_arg0)) (W3 m ρ c (Proc.devRef .tc main_arg2)) (W3 m ρ c (Proc.devRef .tc main_v15)) = _
  rw [KHost.W3_arg0, KHost.W3_arg2, KHost.W3_v15]
  exact Cert.RefBridge.lin1 _ _ _ _

/-- Layer 0 after propagation, normalisation and the positive part, as region 1 leaves it. -/
theorem v47 (c : Dev nD) :
    W6 m ρ c (Proc.devRef .tc main_v47)
      = Cert.ReferenceIdeal.ReadP.val_main_v60 (F := Ideal) (m ((c : Thread nD τ).loc main_arg0)) (m ((c : Thread nD τ).loc main_arg1))
          (m ((c : Thread nD τ).loc main_arg2)) (m ((c : Thread nD τ).loc main_arg3)) := by
  refine (W6_arr m ρ c 1).trans ?_
  rw [Reg1.arr (V5 m ρ) c]
  show Cert.Spec.normRelu (W5 m ρ c (Proc.devRef .tc main_v46)) = _
  rw [KHost.W5_v46, v16]
  rw [Cert.StageBridge.gapp1]
  exact Cert.RefBridge.norm1 _ _ _ _

/-- Layer 1's linear output, as region 2 leaves it. -/
theorem v49 (c : Dev nD) :
    W8 m ρ c (Proc.devRef .tc main_v49)
      = Cert.ReferenceIdeal.ReadP.val_main_v64 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W8_arr m ρ c 3).trans ?_
  rw [Reg2.arr (V7 m ρ) c]
  show Cert.Spec.lin128 (W7 m ρ c (Proc.devRef .tc main_v47)) (W7 m ρ c (Proc.devRef .tc main_arg4)) (W7 m ρ c (Proc.devRef .tc main_v48)) = _
  rw [KHost.W7_v47, KHost.W7_arg4, KHost.W7_v48, v47]
  exact Cert.RefBridge.lin2 _ _ _ _ _ _ _

/-- Layer 1 after propagation, normalisation and the positive part, as region 3 leaves it. -/
theorem v80 (c : Dev nD) :
    W10 m ρ c (Proc.devRef .tc main_v80)
      = Cert.ReferenceIdeal.ReadP.val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W10_arr m ρ c 1).trans ?_
  rw [Reg3.arr (V9 m ρ) c]
  show Cert.Spec.normRelu (W9 m ρ c (Proc.devRef .tc main_v79)) = _
  rw [KHost.W9_v79, v49]
  rw [Cert.StageBridge.gapp2]
  exact Cert.RefBridge.norm2 _ _ _ _ _ _

/-- THE RESULT: what the last region leaves in the result array is the reference's last stage of the arguments. -/
theorem result (c : Dev nD) :
    W12 m ρ c (Proc.devRef .tc main_v82)
      = Cert.ReferenceIdeal.ReadP.val_main_v110 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W12_arr m ρ c 3).trans ?_
  rw [Reg4.arr (V11 m ρ) c]
  show Cert.Spec.lin64 (W11 m ρ c (Proc.devRef .tc main_v80)) (W11 m ρ c (Proc.devRef .tc main_arg6)) (W11 m ρ c (Proc.devRef .tc main_v81)) = _
  rw [KHost.W11_v80, KHost.W11_arg6, KHost.W11_v81, v80]
  exact Cert.RefBridge.lin3 _ _ _ _ _ _ _ _ _

end Cert.KernelIdeal.KValue

end
-- ==== Proof.lean ====
/-
  A two-layer graph network with a linear read-out: three linear layers as kernels (rows times a weight matrix plus a
  bias, the matrix product taken over operands narrowed to a shorter format, which at the ideal instance is the
  identity), two normalise-and-clip kernels (each row divided by its Euclidean length, not below eps, then the positive
  part), and between them on the host the symmetric-normalised propagation over the edge list with one self loop per
  node: gather the rows at the sources, scale by the inverse square roots of the two degrees, scatter-add at the
  targets. The reference computes the same on the host throughout; its propagation step adds zero times the layer's
  input to one times the aggregate, which on the extended reals is the aggregate times one.
  The three frames: the kernel's two programs by their generated frames, the reference's by its run with the result
  dropped. The ideal pass rewrote nothing, so `preserves` asks nothing. The value claim: the kernel program's run names
  its result as the fold's last contents (Proof/KRun.lean), that array is walked back through the five regions and
  the host stretches to the reference's last stage of the arguments (Proof/KValue.lean), and the reference's run ends at
  that stage of the same arguments.
-/
import proofs.«171047_j64132451664423_1_alg».proof.Defs
import proofs.«171047_j64132451664423_1_alg».proof.Proof.Gen.Kernel
import proofs.«171047_j64132451664423_1_alg».proof.Proof.Gen.Kernel.Frame
import proofs.«171047_j64132451664423_1_alg».proof.Proof.Gen.KernelIdeal
import proofs.«171047_j64132451664423_1_alg».proof.Proof.Gen.KernelIdeal.Frame
import proofs.«171047_j64132451664423_1_alg».proof.Proof.Gen.ReferenceIdeal
import proofs.«171047_j64132451664423_1_alg».proof.Proof.Gen.Pre_finite_inputs
import proofs.«171047_j64132451664423_1_alg».proof.Proof.RefRun
import proofs.«171047_j64132451664423_1_alg».proof.Proof.RefRead
import proofs.«171047_j64132451664423_1_alg».proof.Proof.KRun
import proofs.«171047_j64132451664423_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the reference's last stage of the kernel program's arguments. -/
theorem algebraic : Cert.algebraic_KernelIdeal_ReferenceIdeal := by
  intro m ρ m' ρ' _ hagree
  refine ⟨fun c => Cert.KernelIdeal.Gen.W12 m ρ c (Proc.devRef .tc Cert.KernelIdeal.main_v82),
    Cert.KernelIdeal.GenRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v110_eq]
  obtain ⟨h0, h1, h2, h3, h4, h5, h6, h7⟩ := hagree c
  rw [h0, h1, h2, h3, h4, h5, h6, h7]
  exact (Cert.KernelIdeal.KValue.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
